-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S32x262144 : Shape := ⟨2, ![32, 262144]⟩
abbrev S1x262144 : Shape := ⟨2, ![1, 262144]⟩
abbrev S4096 : Shape := ⟨1, ![4096]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S1x262144 : S_.BroadcastsInDim S1x262144 (![] : Fin 0 → Fin S1x262144.rank)
  reducesTo_S1x262144_S_d0_1 : S1x262144.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x512x4096 .f32) (main_arg1 : IVec S32x262144 32) (main_arg2 : FVec F S1x262144 .f32) (main_arg3 : FVec F S1x262144 .f32) (main_arg4 : FVec F S4096 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S1x262144 .f32 := Host.absf main_arg2
  let main_cst_0 : FVec F S_ .f32 := constant S_ .f32 0x7F800000#32
  let main_v5 : FVec F S1x262144 .f32 := broadcastInDim S1x262144 ![] bcast_S_S1x262144 main_cst_0
  let main_v6 : IVec S1x262144 1 := cmpf .olt main_v4 main_v5
  let main_c_1 : IVec S_ 1 := constantI S_ 1 1#1
  let main_v7 : IVec S_ 1 := (fun x v => Host.reduce IntOp.andi x v reducesTo_S1x262144_S_d0_1 h_S_) main_v6 main_c_1
  let main_v8 : IVec S_ 1 := andi main_v3 main_v7
  let main_v9 : FVec F S1x262144 .f32 := Host.absf main_arg3
  let main_cst_2 : FVec F S_ .f32 := constant S_ .f32 0x7F800000#32
  let main_v10 : FVec F S1x262144 .f32 := broadcastInDim S1x262144 ![] bcast_S_S1x262144 main_cst_2
  let main_v11 : IVec S1x262144 1 := cmpf .olt main_v9 main_v10
  let main_c_3 : IVec S_ 1 := constantI S_ 1 1#1
  let main_v12 : IVec S_ 1 := (fun x v => Host.reduce IntOp.andi x v reducesTo_S1x262144_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x512x4096 : Shape := ⟨3, ![8, 512, 4096]⟩
abbrev S32x262144 : Shape := ⟨2, ![32, 262144]⟩
abbrev S1x262144 : Shape := ⟨2, ![1, 262144]⟩
abbrev S4096 : Shape := ⟨1, ![4096]⟩
abbrev S_ : Shape := ⟨0, ![]⟩
abbrev S64x262144 : Shape := ⟨2, ![64, 262144]⟩
abbrev S4096x4096 : Shape := ⟨2, ![4096, 4096]⟩
abbrev S1024x4096 : Shape := ⟨2, ![1024, 4096]⟩
abbrev S512x4096 : Shape := ⟨2, ![512, 4096]⟩
abbrev S512 : Shape := ⟨1, ![512]⟩
abbrev S1024x512 : Shape := ⟨2, ![1024, 512]⟩
abbrev S1x512 : Shape := ⟨2, ![1, 512]⟩

abbrev nBuf : Space → Nat
  | .hbm => 26
  | .vmem => 8
  | .smem => 0
  | _ => 0

abbrev bufTy : (tb : Table) → Fin (tcTables nBuf tb) → BufTy
  | .hbm, ⟨0, _⟩ => ⟨S8x512x4096, .f32⟩
  | .hbm, ⟨1, _⟩ => ⟨S32x262144, .i32⟩
  | .hbm, ⟨2, _⟩ => ⟨S1x262144, .f32⟩
  | .hbm, ⟨3, _⟩ => ⟨S1x262144, .f32⟩
  | .hbm, ⟨4, _⟩ => ⟨S4096, .f32⟩
  | .hbm, ⟨5, _⟩ => ⟨S_, .i32⟩
  | .hbm, ⟨6, _⟩ => ⟨S32x262144, .i32⟩
  | .hbm, ⟨7, _⟩ => ⟨S32x262144, .i32⟩
  | .hbm, ⟨8, _⟩ => ⟨S_, .i32⟩
  | .hbm, ⟨9, _⟩ => ⟨S32x262144, .i32⟩
  | .hbm, ⟨10, _⟩ => ⟨S32x262144, .i32⟩
  | .hbm, ⟨11, _⟩ => ⟨S_, .i32⟩
  | .hbm, ⟨12, _⟩ => ⟨S32x262144, .i32⟩
  | .hbm, ⟨13, _⟩ => ⟨S32x262144, .i32⟩
  | .hbm, ⟨14, _⟩ => ⟨S64x262144, .i32⟩
  | .hbm, ⟨15, _⟩ => ⟨S64x262144, .f32⟩
  | .hbm, ⟨16, _⟩ => ⟨S64x262144, .f32⟩
  | .hbm, ⟨17, _⟩ => ⟨S64x262144, .f32⟩
  | .hbm, ⟨18, _⟩ => ⟨S64x262144, .f32⟩
  | .hbm, ⟨19, _⟩ => ⟨S64x262144, .f32⟩
  | .hbm, ⟨20, _⟩ => ⟨S4096x4096, .f32⟩
  | .hbm, ⟨21, _⟩ => ⟨S4096x4096, .bf16⟩
  | .hbm, ⟨22, _⟩ => ⟨S4096x4096, .f32⟩
  | .hbm, ⟨23, _⟩ => ⟨S4096x4096, .bf16⟩
  | .hbm, ⟨24, _⟩ => ⟨S4096x4096, .f32⟩
  | .hbm, ⟨25, _⟩ => ⟨S8x512x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S512, .f32⟩
  | .local _ .vmem, ⟨5, _⟩ => ⟨S512, .f32⟩
  | .local _ .vmem, ⟨6, _⟩ => ⟨S1024x512, .f32⟩
  | .local _ .vmem, ⟨7, _⟩ => ⟨S1024x512, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S32x262144 : S_.BroadcastsInDim S32x262144 (![] : Fin 0 → Fin S32x262144.rank)
  concatenates_S32x262144_S32x262144_S64x262144_d0 : Shape.Concatenates [S32x262144, S32x262144] S64x262144 0
  bcast_S1x262144_S64x262144_0_1 : S1x262144.BroadcastsInDim S64x262144 (![0, 1] : Fin 2 → Fin S64x262144.rank)
  shapeCasts_S64x262144_S4096x4096 : S64x262144.ShapeCasts S4096x4096
  bitsLt_bf16_f32 : FTy.bits .bf16 < FTy.bits .f32
  shapeCasts_S8x512x4096_S4096x4096 : S8x512x4096.ShapeCasts S4096x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S4096x4096_S8x512x4096 : S4096x4096.ShapeCasts S8x512x4096
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v15) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x4096 : Shape := ⟨3, ![8, 512, 4096]⟩
abbrev S32x262144 : Shape := ⟨2, ![32, 262144]⟩
abbrev S1x262144 : Shape := ⟨2, ![1, 262144]⟩
abbrev S4096 : Shape := ⟨1, ![4096]⟩
abbrev S_ : Shape := ⟨0, ![]⟩
abbrev S64x262144 : Shape := ⟨2, ![64, 262144]⟩
abbrev S4096x4096 : Shape := ⟨2, ![4096, 4096]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8x512x4096, .f32⟩
  | .hbm, ⟨1, _⟩ => ⟨S32x262144, .i32⟩
  | .hbm, ⟨2, _⟩ => ⟨S1x262144, .f32⟩
  | .hbm, ⟨3, _⟩ => ⟨S1x262144, .f32⟩
  | .hbm, ⟨4, _⟩ => ⟨S4096, .f32⟩
  | .hbm, ⟨5, _⟩ => ⟨S_, .i32⟩
  | .hbm, ⟨6, _⟩ => ⟨S32x262144, .i32⟩
  | .hbm, ⟨7, _⟩ => ⟨S32x262144, .i32⟩
  | .hbm, ⟨8, _⟩ => ⟨S_, .i32⟩
  | .hbm, ⟨9, _⟩ => ⟨S32x262144, .i32⟩
  | .hbm, ⟨10, _⟩ => ⟨S32x262144, .i32⟩
  | .hbm, ⟨11, _⟩ => ⟨S_, .i32⟩
  | .hbm, ⟨12, _⟩ => ⟨S32x262144, .i32⟩
  | .hbm, ⟨13, _⟩ => ⟨S32x262144, .i32⟩
  | .hbm, ⟨14, _⟩ => ⟨S64x262144, .i32⟩
  | .hbm, ⟨15, _⟩ => ⟨S64x262144, .f32⟩
  | .hbm, ⟨16, _⟩ => ⟨S64x262144, .f32⟩
  | .hbm, ⟨17, _⟩ => ⟨S64x262144, .f32⟩
  | .hbm, ⟨18, _⟩ => ⟨S64x262144, .f32⟩
  | .hbm, ⟨19, _⟩ => ⟨S64x262144, .f32⟩
  | .hbm, ⟨20, _⟩ => ⟨S4096x4096, .f32⟩
  | .hbm, ⟨21, _⟩ => ⟨S8x512x4096, .f32⟩
  | .hbm, ⟨22, _⟩ => ⟨S1x1x4096, .f32⟩
  | .hbm, ⟨23, _⟩ => ⟨S8x512x4096, .f32⟩
  | .hbm, ⟨24, _⟩ => ⟨S8x512x4096, .f32⟩
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S32x262144 : S_.BroadcastsInDim S32x262144 (![] : Fin 0 → Fin S32x262144.rank)
  concatenates_S32x262144_S32x262144_S64x262144_d0 : Shape.Concatenates [S32x262144, S32x262144] S64x262144 0
  bcast_S1x262144_S64x262144_0_1 : S1x262144.BroadcastsInDim S64x262144 (![0, 1] : Fin 2 → Fin S64x262144.rank)
  shapeCasts_S64x262144_S4096x4096 : S64x262144.ShapeCasts S4096x4096
  bcast_S4096_S1x1x4096_2 : S4096.BroadcastsInDim S1x1x4096 (![2] : Fin 1 → Fin S1x1x4096.rank)
  bcast_S1x1x4096_S8x512x4096_0_1_2 : S1x1x4096.BroadcastsInDim S8x512x4096 (![0, 1, 2] : Fin 3 → Fin S8x512x4096.rank)
  dot_S8x512x4096_S4096x4096_S8x512x4096_2_1_01_0_n_n_wf : DotDims.WF S8x512x4096 S4096x4096 S8x512x4096 [2] [1] [0, 1] [0] [] []

variable [Facts₀]

def dot_S8x512x4096_S4096x4096_S8x512x4096_2_1_01_0_n_n : DotDims S8x512x4096 S4096x4096 S8x512x4096 where
  lhsContracting := [2]
  rhsContracting := [1]
  lhsNonContracting := [0, 1]
  rhsNonContracting := [0]
  lhsBatch := []
  rhsBatch := []
  wf := dot_S8x512x4096_S4096x4096_S8x512x4096_2_1_01_0_n_n_wf

class Facts : Prop extends Facts₀ where

variable [Facts]
-- ==== Proof.BlockProduct.lean ====
/-
  One grid point of the matrix product, read at an entry.

  The body of the kernel at a grid point holds a block `a` of 1024 rows of the left operand (all 4096
  columns), a block `b` of 512 rows of the right operand (all 4096 columns) and the matching 512 entries
  `β` of the bias. It contracts the two blocks over their shared column axis into a zero accumulator and
  adds the bias along rows. Over the extended reals the accumulator's zero is the additive unit, so the
  entry (p, q) of what the body stores is

      (Σ_{k < 4096} a[p, k] · b[q, k]) + β[q].

  The contraction index of the product's dimension numbers is a one-axis index; it is identified with
  `Fin 4096` and the operand indices are read off axis by axis.
-/
import proofs.«430585_j19851338842900_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Idealize.ShloMosaic Idealize.ShloMosaic.ValueIdx Cert.KernelIdeal Cert.KernelIdeal.Gen
open scoped BigOperators

/-- The left operand's row coordinate is the output's row coordinate. -/
theorem lhs_row (i : S1024x512.Idx) (κ : dot_S1024x4096_S512x4096_S1024x512_1_1_0_0_n_n.contr.Idx) :
    (dot_S1024x4096_S512x4096_S1024x512_1_1_0_0_n_n.lhsIdx i κ 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl

/-- The left operand's column coordinate is the contraction coordinate. -/
theorem lhs_col (i : S1024x512.Idx) (κ : dot_S1024x4096_S512x4096_S1024x512_1_1_0_0_n_n.contr.Idx) :
    (dot_S1024x4096_S512x4096_S1024x512_1_1_0_0_n_n.lhsIdx i κ 1).val = (κ ⟨0, by decide⟩).val :=
  dot_S1024x4096_S512x4096_S1024x512_1_1_0_0_n_n.lhsIdx_val_of_single rfl i κ

/-- The right operand's row coordinate is the output's column coordinate. -/
theorem rhs_row (i : S1024x512.Idx) (κ : dot_S1024x4096_S512x4096_S1024x512_1_1_0_0_n_n.contr.Idx) :
    (dot_S1024x4096_S512x4096_S1024x512_1_1_0_0_n_n.rhsIdx i κ 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl

/-- The right operand's column coordinate is the contraction coordinate. -/
theorem rhs_col (i : S1024x512.Idx) (κ : dot_S1024x4096_S512x4096_S1024x512_1_1_0_0_n_n.contr.Idx) :
    (dot_S1024x4096_S512x4096_S1024x512_1_1_0_0_n_n.rhsIdx i κ 1).val = (κ ⟨0, by decide⟩).val :=
  dot_S1024x4096_S512x4096_S1024x512_1_1_0_0_n_n.rhsIdx_val_of_single rfl i κ

/-- The product of a left block with the transpose of a right block, into the zero accumulator, at the
    entry (p, q): the sum over the shared column of the products of the two rows' entries. -/
theorem product_apply (a : FVec Ideal S1024x4096 .bf16) (b : FVec Ideal S512x4096 .bf16) (p : Fin 1024) (q : Fin 512) :
    matmul dot_S1024x4096_S512x4096_S1024x512_1_1_0_0_n_n none a b (constant (F := Ideal) S1024x512 .f32 0x00000000#32) (ix2 p q)
      = ∑ k : Fin 4096, a (ix2 p k) * b (ix2 q k) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun d => Fin.ext (by
    match d with
    | ⟨0, _⟩ => exact lhs_row _ _
    | ⟨1, _⟩ => exact (lhs_col _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun d => Fin.ext (by
    match d with
    | ⟨0, _⟩ => exact rhs_row _ _
    | ⟨1, _⟩ => exact (rhs_col _ _).trans hk)
  rw [el, er]

/-- The bias block as a row [1, 512], repeated down the 1024 rows, read at (p, q): the bias entry q. -/
theorem bias_rows_apply (β : FVec Ideal S512 .f32) (p : Fin 1024) (q : Fin 512) :
    broadcastTo S1024x512 (shapeCast S1x512 β shapeCasts_S512_S1x512) broadcasts_S1x512_S1024x512 (ix2 p q) = β (ix1 q) := by
  rw [broadcastTo_apply _ broadcasts_S1x512_S1024x512 (ix2 p q) (ix2 (⟨0, Nat.one_pos⟩ : Fin 1) q) (fun d => by
    match d with
    | ⟨0, _⟩ => show 0 = if (1 : Nat) = 1 then 0 else _; rw [if_pos rfl]
    | ⟨1, _⟩ => show q.val = if (512 : Nat) = 1 then 0 else q.val; rw [if_neg (by decide)])]
  exact shapeCast_apply β shapeCasts_S512_S1x512 _ (ix1 q) (by
    rw [Shape.rowMajor_val_one, Shape.rowMajor_val_two]; show q.val = 0 * 512 + q.val; omega)

/-- What the body stores at a grid point, at the entry (p, q). -/
theorem stored_apply (a : Vec Ideal S1024x4096 .bf16) (b : Vec Ideal S512x4096 .bf16) (β : Vec Ideal S512 .f32) (p : Fin 1024) (q : Fin 512) :
    k0_pay1 (F := Ideal) a b β (ix2 p q) = (∑ k : Fin 4096, a (ix2 p k) * b (ix2 q k)) + β (ix1 q) := by
  unfold k0_pay1
  rw [addf_apply, shapeCast_self, shapeCast_self, product_apply, bias_rows_apply]

end Cert.KernelIdeal.BlockProduct

end
-- ==== Proof.Region.lean ====
/-
  The kernel's output array after all grid points, as one function of the three arrays it reads.

  The grid has 4 × 8 points. At the point (i, j) the body reads rows 1024·i … 1024·i + 1023 of the left
  array X (all columns), rows 512·j … 512·j + 511 of the right array Wt (all columns) and the entries
  512·j … 512·j + 511 of the bias β, and writes the 1024 × 512 block of the output at block position (i, j).
  By the entry formula of one point, the entry (r, n) of that block is the entry of

      Y[r, n] = (Σ_{k < 4096} X[r, k] · Wt[n, k]) + β[n]

  at the block's position in the whole array: every block is a restriction of the ONE array Y. The 32
  blocks tile the 4096 × 4096 output (row r lies in block row r / 1024, column n in block column n / 512),
  so the output array ends as Y.
-/
import proofs.«430585_j19851338842900_1_alg».proof.Proof.Gen.KernelIdeal.Frame
import proofs.«430585_j19851338842900_1_alg».proof.Proof.BlockProduct

set_option maxRecDepth 16384

noncomputable section

namespace Cert.KernelIdeal.Region

open Idealize.ShloMosaic Idealize.ShloMosaic.ValueIdx Idealize.ShloMosaic.TcCoe Idealize.SL.Sem
open Cert.KernelIdeal Cert.KernelIdeal.Gen
open Idealize.ShloMosaic.Pipeline (Dat)
open scoped BigOperators

/-- Rows of X against rows of Wt, plus the bias along rows: Y[r, n] = Σ_k X[r, k] · Wt[n, k] + β[n]. -/
def rowsByRows (X Wt : FVec Ideal S4096x4096 .bf16) (β : FVec Ideal S4096 .f32) : FVec Ideal S4096x4096 .f32 :=
  fun i => (∑ k : Fin 4096, X (ix2 (i 0) k) * Wt (ix2 (i 1) k)) + β (ix1 (i 1))

/-- One point's stored block agrees with Y wherever its loaded blocks agree with X, Wt and β: if row
    `y 0` of the left block is row `i 0` of X, row `y 1` of the right block is row `i 1` of Wt and entry
    `y 1` of the bias block is entry `i 1` of β, then the stored entry `y` is Y at `i`. -/
theorem stored_eq_rowsByRows (X Wt : FVec Ideal S4096x4096 .bf16) (β : FVec Ideal S4096 .f32)
    (a : Vec Ideal S1024x4096 .bf16) (b : Vec Ideal S512x4096 .bf16) (bb : Vec Ideal S512 .f32)
    (y : S1024x512.Idx) (i : S4096x4096.Idx)
    (ha : ∀ k : Fin 4096, a (ix2 (y 0) k) = X (ix2 (i 0) k))
    (hb : ∀ k : Fin 4096, b (ix2 (y 1) k) = Wt (ix2 (i 1) k))
    (hβ : bb (ix1 (y 1)) = β (ix1 (i 1))) :
    k0_pay1 (F := Ideal) a b bb y = rowsByRows X Wt β i := by
  obtain ⟨p, q, rfl⟩ : ∃ (p : Fin 1024) (q : Fin 512), y = ix2 p q := ⟨y 0, y 1, eq_ix2 y⟩
  rw [BlockProduct.stored_apply]
  unfold rowsByRows
  have hsum : (∑ k : Fin 4096, a (ix2 p k) * b (ix2 q k)) = ∑ k : Fin 4096, X (ix2 (i 0) k) * Wt (ix2 (i 1) k) :=
    Finset.sum_congr rfl fun k _ => by rw [← ha k, ← hb k]
  rw [hsum, ← hβ]

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The block positions at a grid point: the left operand's block row is the output's, the right operand's
    block row and the bias's block are the output's block column, the operands' blocks span all columns;
    the output's block position stays inside the 4 × 8 arrangement. -/
theorem block_positions : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 1) = win0_3.index t (1 : Fin 2)
    ∧ win0_3.index t (0 : Fin 2) ≤ 3 ∧ win0_3.index t (1 : Fin 2) ≤ 7 :=
  (by decide +kernel : ∀ t : Fin grid0.N, _)

/-- Every block position of the 4 × 8 arrangement is some grid point's. -/
theorem block_positions_onto : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

/-- What point `t` writes back is block `t` of Y of the arrays as the region finds them. -/
theorem flushed_eq (c : Dev nD) (t : Fin cfg0.N) :
    (dats m 0 c).flushed 3 t = ((cfg0.win 3).blk t).view.read (Elt Ideal) (rowsByRows (V m c main_v15) (V m c main_v13) (V m c main_arg4)) := by
  show (cfg0.win 3).cut (grid0.coords t) ((dats m 0 c).after 3 t) = _
  rw [after0_3]
  unfold out0_3
  rw [View.canon_unit_zero origin2]
  simp only [View.ld_unit_zero (S := S1024x4096) origin2, View.ld_unit_zero (S := S512x4096) origin2, View.ld_unit_zero (S := S512) origin1]
  obtain ⟨e0, e1, e2, e3, e4, e5, e6⟩ := block_positions t
  funext j
  refine stored_eq_rowsByRows (V m c main_v15) (V m c main_v13) (V m c main_arg4) (iblk m c 0 t) (iblk m c 1 t) (iblk m c 2 t) j
    (((cfg0.win 3).blk t).view.emb j) ?_ ?_ ?_
  · intro k
    show V m c main_v15 (((cfg0.win 0).blk t).view.emb (ix2 (j 0) k)) = V m c main_v15 (ix2 ((((cfg0.win 3).blk t).view.emb j) 0) k)
    refine congrArg (V m c main_v15) (funext fun d => Fin.ext ?_)
    match d with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * k.val = k.val; omega
  · intro k
    show V m c main_v13 (((cfg0.win 1).blk t).view.emb (ix2 (j 1) k)) = V m c main_v13 (ix2 ((((cfg0.win 3).blk t).view.emb j) 1) k)
    refine congrArg (V m c main_v13) (funext fun d => Fin.ext ?_)
    match d with
    | ⟨0, _⟩ => show win0_1.index t (0 : Fin 2) * 512 + 1 * (j 1).val = win0_3.index t (1 : Fin 2) * 512 + 1 * (j 1).val; omega
    | ⟨1, _⟩ => show win0_1.index t (1 : Fin 2) * 4096 + 1 * k.val = k.val; omega
  · show V m c main_arg4 (((cfg0.win 2).blk t).view.emb (ix1 (j 1))) = V m c main_arg4 (ix1 ((((cfg0.win 3).blk t).view.emb j) 1))
    refine congrArg (V m c main_arg4) (funext fun d => Fin.ext ?_)
    match d with
    | ⟨0, _⟩ => show win0_2.index t (0 : Fin 1) * 512 + 1 * (j 1).val = win0_3.index t (1 : Fin 2) * 512 + 1 * (j 1).val; omega

/-- An index of the output array is in point `t`'s block iff each coordinate is in the block's range. -/
theorem mem_blk (t : Fin cfg0.N) (i : S4096x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v16).slice (win0_3.rect t)).set ↔ _
  rw [View.set_slice_whole, Rect.mem_set_unit]
  exact Iff.rfl

/-- The blocks tile the output: the entry (r, n) is in the block at position (r / 1024, n / 512). -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := block_positions_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The output array after the run is Y of the arrays as the region finds them. -/
theorem output_eq (c : Dev nD) :
    (dats m 0 c).arrAt 3 cfg0.N = rowsByRows (V m c main_v15) (V m c main_v13) (V m c main_arg4) :=
  (dats m 0 c).arrAt_eq_of_cover 3 _ (fun t _ => flushed_eq m c t) covered

end Cert.KernelIdeal.Region

end
-- ==== Proof.KernelWhole.lean ====
/-
  The kernel program's result as a function of its five arguments.

  Before the region the host lines build the region's two matrix operands: the left one X is x with its two
  leading axes merged, X[b·512 + s, k] = x[b, s, k]; the right one is the dequantised weight array W
  (`dequant`: the 4-bit codes unpacked, minus the zero point, times the scale, laid out 4096 × 4096). Both
  are narrowed to the 16-bit float format, which on the extended reals changes nothing. The region leaves
  Y[r, n] = Σ_k X[r, k] · W[n, k] + bias[n] in the output array, and the one host line after the region
  splits Y's row axis back into (b, s). Hence the result at (b, s, o) is

      (Σ_{k < 4096} x[b, s, k] · W[o, k]) + bias[o].
-/
import proofs.«430585_j19851338842900_1_alg».proof.Proof.Region
import Idealize.ShloMosaic.Lib.StableHlo.Run

set_option maxRecDepth 16384

noncomputable section

namespace Cert.KernelIdeal.Whole

open Idealize.ShloMosaic Idealize.ShloMosaic.ValueIdx Idealize.ShloMosaic.TcCoe Idealize.SL.Sem Idealize.ShloMosaic.StableHlo
open Cert.KernelIdeal Cert.KernelIdeal.Gen
open scoped BigOperators

/-- The dequantised weights: the high and low 4-bit codes of each packed word stacked along the first axis,
    converted to floats, shifted by the zero point and scaled per column, then laid out as 4096 × 4096. -/
def dequant (q : (⟨S32x262144, .i32⟩ : BufTy).Contents (Elt Ideal)) (sc zp : (⟨S1x262144, .f32⟩ : BufTy).Contents (Elt Ideal)) :
    (⟨S4096x4096, .f32⟩ : BufTy).Contents (Elt Ideal) :=
  shapeCast _ (mulf (F := Ideal) (subf (F := Ideal) (sitofp (F := Ideal) .f32 (concatenate S64x262144 0 [⟨S32x262144, (andi (Host.shrsi q (broadcastInDim S32x262144 ![] bcast_S_S32x262144 (constantI S_ 32 4#32))) (broadcastInDim S32x262144 ![] bcast_S_S32x262144 (constantI S_ 32 15#32)))⟩, ⟨S32x262144, (andi q (broadcastInDim S32x262144 ![] bcast_S_S32x262144 (constantI S_ 32 15#32)))⟩] concatenates_S32x262144_S32x262144_S64x262144_d0)) (broadcastInDim S64x262144 ![0, 1] bcast_S1x262144_S64x262144_0_1 zp)) (broadcastInDim S64x262144 ![0, 1] bcast_S1x262144_S64x262144_0_1 sc)) shapeCasts_S64x262144_S4096x4096

/-- The program's result array, from the arguments: Y over the merged x and the dequantised weights, its
    row axis split back into two. -/
def result (x0 : (⟨S8x512x4096, .f32⟩ : BufTy).Contents (Elt Ideal)) (q : (⟨S32x262144, .i32⟩ : BufTy).Contents (Elt Ideal))
    (sc zp : (⟨S1x262144, .f32⟩ : BufTy).Contents (Elt Ideal)) (β : (⟨S4096, .f32⟩ : BufTy).Contents (Elt Ideal)) :
    (⟨S8x512x4096, .f32⟩ : BufTy).Contents (Elt Ideal) :=
  shapeCast S8x512x4096
    (Region.rowsByRows (truncf (F := Ideal) .bf16 (shapeCast S4096x4096 x0 shapeCasts_S8x512x4096_S4096x4096) bitsLt_bf16_f32)
      (truncf (F := Ideal) .bf16 (dequant q sc zp) bitsLt_bf16_f32) β)
    shapeCasts_S4096x4096_S8x512x4096

variable (m : (ℓ : Loc nD τ sig) → Buf (Elt Ideal) ℓ) (ρ : Dev nD → PrngReg)

/-- The region's left operand as it finds it: x with its leading axes merged. -/
theorem left_operand (c : Dev nD) :
    V m c main_v15 = truncf (F := Ideal) .bf16 (shapeCast S4096x4096 (m ((c : Thread nD τ).loc main_arg0)) shapeCasts_S8x512x4096_S4096x4096) bitsLt_bf16_f32 := by
  show StableHlo.after hostOps0 (fun b => m (c, b)) (Proc.devRef .tc main_v15) = _
  after_results
  rfl

/-- The region's right operand as it finds it: the dequantised weights. -/
theorem right_operand (c : Dev nD) :
    V m c main_v13 = truncf (F := Ideal) .bf16 (dequant (m ((c : Thread nD τ).loc main_arg1)) (m ((c : Thread nD τ).loc main_arg2)) (m ((c : Thread nD τ).loc main_arg3))) bitsLt_bf16_f32 := by
  show StableHlo.after hostOps0 (fun b => m (c, b)) (Proc.devRef .tc main_v13) = _
  after_results
  rfl

/-- The result buffer after the host line that follows the region. -/
theorem result_buffer (c : Dev nD) :
    Pipeline.afterTail₀ cfgs (dats m) 0 (V0 m) [hostOps1] c main_v17
      = result (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v17) = _
  after_results
  have hY : Pipeline.withArrays (cfgs 0).spec c (V0 m c) (fun w => (dats m 0 c).arrAt w (cfgs 0).N) (Proc.tc.devRef main_v16)
      = Region.rowsByRows (V m c main_v15) (V m c main_v13) (V m c main_arg4) :=
    (Pipeline.withArrays_arr spec0 launch0.win.arr_inj c _ _ 3).trans (Region.output_eq m c)
  rw [hY, left_operand, right_operand, V_main_arg4]
  rfl

/-- The program's result at the entry (b, s, o): row b·512 + s of the merged x is x[b, s, ·]. -/
theorem result_apply (x0 : (⟨S8x512x4096, .f32⟩ : BufTy).Contents (Elt Ideal)) (q : (⟨S32x262144, .i32⟩ : BufTy).Contents (Elt Ideal))
    (sc zp : (⟨S1x262144, .f32⟩ : BufTy).Contents (Elt Ideal)) (β : (⟨S4096, .f32⟩ : BufTy).Contents (Elt Ideal))
    (b : Fin 8) (s : Fin 512) (o : Fin 4096) :
    result x0 q sc zp β (ix3 b s o) = (∑ k : Fin 4096, x0 (ix3 b s k) * dequant q sc zp (ix2 o k)) + β (ix1 o) := by
  have hr : b.val * 512 + s.val < 4096 := by have := b.isLt; have := s.isLt; omega
  unfold result
  rw [shapeCast_apply _ shapeCasts_S4096x4096_S8x512x4096 (ix3 b s o) (ix2 (⟨b.val * 512 + s.val, hr⟩ : Fin 4096) o) (by
    rw [Shape.rowMajor_val_two, Shape.rowMajor_val_three]; rfl)]
  unfold Region.rowsByRows
  refine congrArg (· + β (ix1 o)) (Finset.sum_congr rfl fun k _ => ?_)
  show shapeCast S4096x4096 x0 shapeCasts_S8x512x4096_S4096x4096 (ix2 (⟨b.val * 512 + s.val, hr⟩ : Fin 4096) k) * dequant q sc zp (ix2 o k) = _
  rw [shapeCast_apply x0 shapeCasts_S8x512x4096_S4096x4096 (ix2 (⟨b.val * 512 + s.val, hr⟩ : Fin 4096) k) (ix3 b s k) (by
    rw [Shape.rowMajor_val_three, Shape.rowMajor_val_two]; rfl)]

/-- Every weakly fair execution of the program terminates with the result buffer at `result` of the
    arguments and the arguments unchanged. -/
theorem run : θ_run defs (onTc (τ := τ) (main (F := Ideal))) ⟨m, fun _ => 0, ρ⟩ fun r => ∀ c : Dev nD,
      r.2.mem ((c.tc : Thread nD τ).loc main_v17)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 (by decide) (by decide))).trans (result_buffer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c)))⟩)
    (run_main m ρ)

end Cert.KernelIdeal.Whole

end
-- ==== Proof.ReferenceEntry.lean ====
/-
  The reference at an entry.

  The reference dequantises the packed weights into a 4096 × 4096 array W (row = output feature, column =
  input feature), contracts the last axis of x against the column axis of W, and adds the bias along the
  last axis. So its result at (b, s, o) is

      (Σ_{k < 4096} x[b, s, k] · W[o, k]) + bias[o].
-/
import proofs.«430585_j19851338842900_1_alg».proof.Proof.Gen.ReferenceIdeal.Read

noncomputable section

namespace Cert.ReferenceIdeal.Entry

open Idealize.ShloMosaic Idealize.ShloMosaic.ValueIdx Cert.ReferenceIdeal Cert.ReferenceIdeal.Read
open scoped BigOperators

/-- The reference's result at the entry (b, s, o), over the dequantised weights `val_main_v12`. -/
theorem result_apply (x0 : (⟨S8x512x4096, .f32⟩ : BufTy).Contents (Elt Ideal)) (x1 : (⟨S32x262144, .i32⟩ : BufTy).Contents (Elt Ideal))
    (x2 x3 : (⟨S1x262144, .f32⟩ : BufTy).Contents (Elt Ideal)) (x4 : (⟨S4096, .f32⟩ : BufTy).Contents (Elt Ideal))
    (b : Fin 8) (s : Fin 512) (o : Fin 4096) :
    val_main_v16 (F := Ideal) x0 x1 x2 x3 x4 (ix3 b s o)
      = (∑ k : Fin 4096, x0 (ix3 b s k) * val_main_v12 (F := Ideal) x1 x2 x3 (ix2 o k)) + x4 (ix1 o) := by
  have el : ∀ k : Fin 4096, lidx_main_v13 (ix3 b s o) k = ix3 b s k := fun k => funext fun a => Fin.ext (by
    match a with | ⟨0, _⟩ => rfl | ⟨1, _⟩ => rfl | ⟨2, _⟩ => rfl)
  have er : ∀ k : Fin 4096, ridx_main_v13 (ix3 b s o) k = ix2 o k := fun k => funext fun a => Fin.ext (by
    match a with | ⟨0, _⟩ => rfl | ⟨1, _⟩ => rfl)
  have eb : idx_main_v14 (idx_main_v15 (ix3 b s o)) = ix1 o := funext fun a => Fin.ext (by
    match a with | ⟨0, _⟩ => rfl)
  rw [val_main_v16_apply, val_main_v13_apply, val_main_v15_apply, val_main_v14_apply, eb]
  simp only [el, er]
  rfl

end Cert.ReferenceIdeal.Entry

end
-- ==== Proof.lean ====
/-
  A 4-bit-quantised linear layer: the kernel against its reference, over the extended reals.

  Both programs first dequantise the packed weights by the same host operations: each 32-bit word holds
  two 4-bit codes, the high codes and the low codes are stacked along the first axis, converted to floats,
  shifted by a per-column zero point, scaled per column, and laid out as W : 4096 × 4096 (row = output
  feature). The two programs then differ only in how they form x · Wᵀ + bias:

  * the reference contracts the last axis of x[8, 512, 4096] against the columns of W and adds the bias
    along the last axis:  out[b, s, o] = (Σ_k x[b, s, k] · W[o, k]) + bias[o];

  * the kernel merges the two leading axes of x into 4096 rows, narrows both operands to a 16-bit float
    format (the identity on the extended reals), computes the 4096 × 4096 product block by block on a
    4 × 8 grid — each point contracts 1024 rows of x against 512 rows of W over all 4096 columns into a
    zero accumulator and adds 512 bias entries — and splits the row axis back into (b, s).

  The blocks are restrictions of one array Y[r, n] = Σ_k X[r, k] · W[n, k] + bias[n] and tile it, so the
  kernel's result at (b, s, o) is Y[b·512 + s, o] = (Σ_k x[b, s, k] · W[o, k]) + bias[o]: the same sum of
  the same products, term by term. No law beyond reading both sides at an entry is used, so the finiteness
  precondition is never opened. The idealisation pass rewrote nothing, so `preserves` is trivial.
-/
import proofs.«430585_j19851338842900_1_alg».proof.Defs
import proofs.«430585_j19851338842900_1_alg».proof.Proof.Gen.Kernel
import proofs.«430585_j19851338842900_1_alg».proof.Proof.Gen.Kernel.Skeleton
import proofs.«430585_j19851338842900_1_alg».proof.Proof.Gen.Kernel.Launch
import proofs.«430585_j19851338842900_1_alg».proof.Proof.Gen.Kernel.Points
import proofs.«430585_j19851338842900_1_alg».proof.Proof.Gen.Kernel.Frame
import proofs.«430585_j19851338842900_1_alg».proof.Proof.Gen.KernelIdeal
import proofs.«430585_j19851338842900_1_alg».proof.Proof.Gen.KernelIdeal.Skeleton
import proofs.«430585_j19851338842900_1_alg».proof.Proof.Gen.KernelIdeal.Launch
import proofs.«430585_j19851338842900_1_alg».proof.Proof.Gen.KernelIdeal.Points
import proofs.«430585_j19851338842900_1_alg».proof.Proof.Gen.KernelIdeal.Frame
import proofs.«430585_j19851338842900_1_alg».proof.Proof.Gen.ReferenceIdeal
import proofs.«430585_j19851338842900_1_alg».proof.Proof.Gen.Pre_finite_inputs
import proofs.«430585_j19851338842900_1_alg».proof.Proof.Gen.ReferenceIdeal.Run
import proofs.«430585_j19851338842900_1_alg».proof.Proof.Gen.ReferenceIdeal.Read
import proofs.«430585_j19851338842900_1_alg».proof.Proof.KernelWhole
import proofs.«430585_j19851338842900_1_alg».proof.Proof.ReferenceEntry
import Idealize.ShloMosaic.Adequacy
import Idealize.ShloMosaic.Init

noncomputable section

namespace Cert.Proof

open Idealize.ShloMosaic Idealize.ShloMosaic.ValueIdx Idealize.SL.Sem

/-- The two programs dequantise the weights by the same operations. -/
theorem weights_eq (q : (⟨Cert.KernelIdeal.S32x262144, .i32⟩ : BufTy).Contents (Elt Ideal))
    (sc zp : (⟨Cert.KernelIdeal.S1x262144, .f32⟩ : BufTy).Contents (Elt Ideal)) :
    Cert.KernelIdeal.Whole.dequant q sc zp = Cert.ReferenceIdeal.Read.val_main_v12 (F := Ideal) q sc zp := rfl

/-- The reference's result is the kernel program's: at every entry (b, s, o) both are
    (Σ_k x[b, s, k] · W[o, k]) + bias[o]. -/
theorem results_eq (x0 : (⟨Cert.KernelIdeal.S8x512x4096, .f32⟩ : BufTy).Contents (Elt Ideal))
    (q : (⟨Cert.KernelIdeal.S32x262144, .i32⟩ : BufTy).Contents (Elt Ideal))
    (sc zp : (⟨Cert.KernelIdeal.S1x262144, .f32⟩ : BufTy).Contents (Elt Ideal))
    (β : (⟨Cert.KernelIdeal.S4096, .f32⟩ : BufTy).Contents (Elt Ideal)) :
    Cert.ReferenceIdeal.Read.val_main_v16 (F := Ideal) x0 q sc zp β = Cert.KernelIdeal.Whole.result x0 q sc zp β := by
  funext i
  obtain ⟨b, s, o, rfl⟩ : ∃ (b : Fin 8) (s : Fin 512) (o : Fin 4096), i = ix3 b s o := ⟨i 0, i 1, i 2, eq_ix3 i⟩
  rw [Cert.ReferenceIdeal.Entry.result_apply, Cert.KernelIdeal.Whole.result_apply, weights_eq]

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2.1, (hagree c).2.2.2.1, (hagree c).2.2.2.2]
  exact results_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
